-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x26 : Shape := ⟨2, ![4096, 26]⟩
abbrev S_ : Shape := ⟨0, ![]⟩

class Facts : Prop where

variable [Facts]

def fn {F : FTy → Type} [FloatOps F] (main_arg0 : IVec S4096x26 32) : IVec S_ 1 :=
  let main_c : IVec S_ 1 := constantI S_ 1 1#1
  main_c
-- ==== Kernel.lean ====
abbrev S4096x26 : Shape := ⟨2, ![4096, 26]⟩
abbrev S106496x1 : Shape := ⟨2, ![106496, 1]⟩
abbrev S106496x1000 : Shape := ⟨2, ![106496, 1000]⟩
abbrev S1024x1 : Shape := ⟨2, ![1024, 1]⟩
abbrev S1024x1000 : Shape := ⟨2, ![1024, 1000]⟩
abbrev S4096x26x1000 : Shape := ⟨3, ![4096, 26, 1000]⟩

abbrev nBuf : Space → Nat
  | .hbm => 4
  | .vmem => 4
  | .smem => 0
  | _ => 0

abbrev bufTy : (tb : Table) → Fin (tcTables nBuf tb) → BufTy
  | .hbm, ⟨0, _⟩ => ⟨S4096x26, .i32⟩
  | .hbm, ⟨1, _⟩ => ⟨S106496x1, .i32⟩
  | .hbm, ⟨2, _⟩ => ⟨S106496x1000, .f32⟩
  | .hbm, ⟨3, _⟩ => ⟨S4096x26x1000, .f32⟩
  | .local _ .vmem, ⟨0, _⟩ => ⟨S1024x1, .i32⟩
  | .local _ .vmem, ⟨1, _⟩ => ⟨S1024x1, .i32⟩
  | .local _ .vmem, ⟨2, _⟩ => ⟨S1024x1000, .f32⟩
  | .local _ .vmem, ⟨3, _⟩ => ⟨S1024x1000, .f32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![104], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x26_S106496x1 : S4096x26.ShapeCasts S106496x1
  iota_S1024x1000_d1_w32 : S1024x1000.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1000 : S1024x1.Broadcasts S1024x1000
  natLt_1_32 : 1 < 32
  inb_S1024x1000_S1024x1000_0_0 : ∀ a, (![0, 0] : Fin 2 → Nat) a + S1024x1000.size a ≤ S1024x1000.size a
  h_S1024x1000 : 0 < S1024x1000.numel
  shapeCasts_S106496x1000_S4096x26x1000 : S106496x1000.ShapeCasts S4096x26x1000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S106496x1.size a
  hwx0_0 : ∀ i : grid0.Coords, EltTy.bits .i32 = 32 ∨ (Rect.block (s := S106496x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S106496x1000.size a
  hwx0_1 : ∀ i : grid0.Coords, EltTy.bits .f32 = 32 ∨ (Rect.block (s := S106496x1000) S1024x1000.size (cc0_transform_1 i) (hinb0_1 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x26 : Shape := ⟨2, ![4096, 26]⟩
abbrev S4096x26x1 : Shape := ⟨3, ![4096, 26, 1]⟩
abbrev S1x1x1000 : Shape := ⟨3, ![1, 1, 1000]⟩
abbrev S4096x26x1000 : Shape := ⟨3, ![4096, 26, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1x1x1000, .i32⟩
  | .hbm, ⟨3, _⟩ => ⟨S4096x26x1000, .i32⟩
  | .hbm, ⟨4, _⟩ => ⟨S4096x26x1000, .i32⟩
  | .hbm, ⟨5, _⟩ => ⟨S4096x26x1000, .i1⟩
  | .hbm, ⟨6, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S4096x26_S4096x26x1_0_1 : S4096x26.BroadcastsInDim S4096x26x1 (![0, 1] : Fin 2 → Fin S4096x26x1.rank)
  bcast_S4096x26x1_S4096x26x1000_0_1_2 : S4096x26x1.BroadcastsInDim S4096x26x1000 (![0, 1, 2] : Fin 3 → Fin S4096x26x1000.rank)
  bcast_S1x1x1000_S4096x26x1000_0_1_2 : S1x1x1000.BroadcastsInDim S4096x26x1000 (![0, 1, 2] : Fin 3 → Fin S4096x26x1000.rank)

variable [Facts₀]

class Facts : Prop extends Facts₀ where

variable [Facts]
-- ==== Proof.OneHotSpec.lean ====
/-
  One-hot encoding of class labels, as a function of the label array.

  A label array `x` of 4096 rows and 26 columns of 32-bit words is sent to an array of 4096 × 26 × 1000 numbers: entry
  `(b, s, c)` is the truth value of "the word `x b s` is the word of the number `c`", read as the number 1 or 0
  (`indicator`). A label that is the word of no class below 1000 — a negative one, or one of 1000 or more — yields a
  row of zeros, so nothing has to be asked of the labels.

  The same array arises through the flat view: the labels laid out as one column of 106496 = 4096 · 26 words in
  row-major order, encoded into 106496 rows of 1000 numbers (`oneHotFlat`), and that array viewed again as
  4096 × 26 × 1000. Row `b · 26 + s` of the flat code is row `(b, s)` of the other, and the flat column's word there is
  `x b s`: `oneHot_of_flat`.
-/
import Idealize.ShloMosaic.PureOps.Ideal
import Idealize.ShloMosaic.Lib.ValueIdx
import Idealize.ShloMosaic.Lib.Pipeline.Value

noncomputable section

namespace Cert.OneHot

open Idealize.ShloMosaic Idealize.ShloMosaic.ValueIdx Idealize.ShloMosaic.Pipeline

/-- 4096 rows of 26 labels. -/
abbrev LabelShape : Shape := ⟨2, ![4096, 26]⟩
/-- Per label, 1000 numbers. -/
abbrev CodeShape : Shape := ⟨3, ![4096, 26, 1000]⟩
/-- The labels as one column, in row-major order. -/
abbrev FlatLabelShape : Shape := ⟨2, ![106496, 1]⟩
/-- Per entry of that column, 1000 numbers. -/
abbrev FlatCodeShape : Shape := ⟨2, ![106496, 1000]⟩

/-- "The label is class `c`": the one-bit comparison of the label's word with the word of `c`, read as the number
    1 or 0. -/
def indicator (label : BitVec 32) (c : ℕ) : Ideal .f32 :=
  FloatOps.uitofp (F := Ideal) .f32 (IntOp.cmpi .eq label (BitVec.ofNat 32 c))

/-- The row and column of the label that entry `i` of the code depends on. -/
abbrev labelAt (i : CodeShape.Idx) : LabelShape.Idx :=
  ix2 (⟨(i 0).val, (i 0).isLt⟩ : Fin 4096) (⟨(i 1).val, (i 1).isLt⟩ : Fin 26)

/-- The one-hot code: entry `(b, s, c)` indicates that label `(b, s)` is class `c`. -/
def oneHot (x : IVec LabelShape 32) : FVec Ideal CodeShape .f32 :=
  fun i => indicator (x (labelAt i)) (i 2).val

/-- The one-hot code of a column of labels: entry `(r, c)` indicates that the column's label `r` is class `c`. -/
def oneHotFlat (y : IVec FlatLabelShape 32) : FVec Ideal FlatCodeShape .f32 :=
  fun j => indicator (y (ix2 (⟨(j 0).val, (j 0).isLt⟩ : Fin 106496) (0 : Fin 1))) (j 1).val

/-- Encoding the flat column and viewing the result as 4096 × 26 × 1000 is encoding the label array: entry `(b, s, c)`
    of the view is entry `(b · 26 + s, c)` of the flat code, whose label is entry `b · 26 + s` of the column, which is
    label `(b, s)` of the array. -/
theorem oneHot_of_flat (x : IVec LabelShape 32) (h1 : LabelShape.ShapeCasts FlatLabelShape)
    (h2 : FlatCodeShape.ShapeCasts CodeShape) :
    shapeCast CodeShape (oneHotFlat (shapeCast FlatLabelShape x h1)) h2 = oneHot x := by
  funext i
  have hb : (i 0).val < 4096 := (i 0).isLt
  have hs : (i 1).val < 26 := (i 1).isLt
  have hc : (i 2).val < 1000 := (i 2).isLt
  have hr : (i 0).val * 26 + (i 1).val < 106496 := by omega
  rw [shapeCast_apply _ h2 i (ix2 (⟨(i 0).val * 26 + (i 1).val, hr⟩ : Fin 106496) (⟨(i 2).val, hc⟩ : Fin 1000)) (by
    rw [Shape.rowMajor_val_two, Shape.rowMajor_val_three]; rfl)]
  show indicator (shapeCast FlatLabelShape x h1 (ix2 (⟨(i 0).val * 26 + (i 1).val, hr⟩ : Fin 106496) (0 : Fin 1))) (i 2).val
    = indicator (x (labelAt i)) (i 2).val
  rw [shapeCast_apply x h1 _ (labelAt i) (by
    rw [Shape.rowMajor_val_two, Shape.rowMajor_val_two]
    show (i 0).val * 26 + (i 1).val = ((i 0).val * 26 + (i 1).val) * 1 + 0
    omega)]

end Cert.OneHot

end
-- ==== Proof.ReferenceValue.lean ====
/-
  The reference computes the one-hot code.

  The reference gives the label array a trailing unit axis, repeats it 1000 times along that axis, lays the numbers
  0 … 999 along the same axis of an array of the same shape, compares the two entry by entry and reads each bit as the
  number 1 or 0. At entry `(b, s, c)` the repeated labels hold `x b s` and the counting array holds the word of `c`,
  so the entry is the indicator that label `(b, s)` is class `c`.
-/
import proofs.«170936_g74560632258595_cont_9to1c4b_788_3_alg».proof.Proof.Gen.ReferenceIdeal.Read
import proofs.«170936_g74560632258595_cont_9to1c4b_788_3_alg».proof.Proof.OneHotSpec

noncomputable section

namespace Cert.ReferenceIdeal.RefValue

open Cert.ReferenceIdeal Cert.ReferenceIdeal.Read Idealize.ShloMosaic Idealize.ShloMosaic.ValueIdx Cert.OneHot

/-- Through the two broadcasts, entry `i` of the repeated labels is the label at `i`'s row and column. -/
theorem label_index (i : S4096x26x1000.Idx) : idx_main_call0_v0 (idx_main_call0_v2 i) = labelAt i :=
  funext fun a => Fin.ext (by match a with | ⟨0, _⟩ => rfl | ⟨1, _⟩ => rfl)

/-- The reference's result, as a function of the label array, is the one-hot code. -/
theorem reference_is_oneHot (x : IVec S4096x26 32) : val_main_v0 (F := Ideal) x = oneHot x := by
  funext i
  rw [val_main_v0_apply, val_main_call0_v4_apply, val_main_call0_v2_apply, val_main_call0_v0_apply,
    val_main_call0_v3_apply, val_main_call0_v1_apply, label_index]
  rfl

end Cert.ReferenceIdeal.RefValue

end
-- ==== Proof.LibBroadcastCol.lean ====
/-
  A column broadcast over many columns, read at an index (the companion of the library's one-row form
  `ValueIdx.broadcastTo_1b_ab_apply`).
-/
import Idealize.ShloMosaic.Lib.Pipeline.Value
import Idealize.ShloMosaic.Lib.ValueIdx

namespace Idealize.ShloMosaic.ValueIdx

open Idealize.ShloMosaic

/-- An `[a, 1]` array broadcast to `[a, b]` reads, at `(p, c)`, the operand's one column at row `p`: the unit axis
    is read at `0` whatever `c` is, the other axis at the index's own coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockPayload.lean ====
/-
  One block of the kernel's work: 1024 labels in, 1024 rows of 1000 numbers out.

  The body repeats its column of 1024 labels along 1000 lanes, counts the lanes 0 … 999, compares, widens each bit to a
  word and converts the word as a signed integer. A bit widened with zeros is a word of value 0 or 1, so converting it
  signed is reading the bit itself as a number: entry `(p, q)` of the block is the indicator that the block's label
  `p` is class `q`.
-/
import proofs.«170936_g74560632258595_cont_9to1c4b_788_3_alg».proof.Proof.Gen.KernelIdeal.Skeleton
import proofs.«170936_g74560632258595_cont_9to1c4b_788_3_alg».proof.Proof.OneHotSpec
import proofs.«170936_g74560632258595_cont_9to1c4b_788_3_alg».proof.Proof.LibBroadcastCol
import Idealize.ShloMosaic.Lib.KernelVsHost
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.OneHot

/-- Entry `(p, q)` of what the body stores: the indicator that the label in row `p` of the loaded column is class `q`. -/
theorem payload_apply (v : Vec Ideal S1024x1 .i32) (p : Fin 1024) (q : Fin 1000) :
    k0_pay1 (F := Ideal) v (ix2 p q) = indicator (v (ix2 p (0 : Fin 1))) q.val := by
  unfold k0_pay1
  dsimp only
  refine (congrFun (sitofp_extui_eq_uitofp (φ := .f32) _ natLt_1_32) (ix2 p q)).trans ?_
  show FloatOps.uitofp (F := Ideal) .f32 (IntOp.cmpi .eq
      (broadcastTo S1024x1000 (shapeCast S1024x1 v shapeCasts_S1024x1_S1024x1) broadcasts_S1024x1_S1024x1000 (ix2 p q))
      (iota .tc S1024x1000 32 [1] iota_S1024x1000_d1_w32 (ix2 p q))) = _
  rw [broadcastTo_a1_ab_apply, shapeCast_self, iota_single_apply]
  rfl

/-- The same entry against the flat code of a column `y` of labels: when the block's label `p` is the column's label in
    the row of entry `i`, and `q` is `i`'s class, the block's entry `(p, q)` is the flat code's entry `i`. -/
theorem payload_eq_flat (v : Vec Ideal S1024x1 .i32) (y : IVec FlatLabelShape 32) (p : Fin 1024) (q : Fin 1000)
    (i : FlatCodeShape.Idx)
    (hlabel : v (ix2 p (0 : Fin 1)) = y (ix2 (⟨(i 0).val, (i 0).isLt⟩ : Fin 106496) (0 : Fin 1)))
    (hclass : q.val = (i 1).val) :
    k0_pay1 (F := Ideal) v (ix2 p q) = oneHotFlat y i := by
  rw [payload_apply, hlabel, hclass]
  rfl

end Cert.KernelIdeal.Block

end
-- ==== Proof.KernelValue.lean ====
/-
  The kernel's result array is the one-hot code of its argument.

  Before the region the labels are viewed as one column of 106496 words; the region works through it 1024 labels at a
  time, grid point `t` reading rows `1024 t … 1024 t + 1023` of the column and writing the same rows of a
  106496 × 1000 array; after the region that array is viewed as 4096 × 26 × 1000.

  What point `t` writes back is rows `1024 t …` of the flat code of the column (the block's entry `(p, q)` indicates
  that the column's label `1024 t + p` is class `q`); row `r` of the array lies in the block of point `r / 1024`, so the
  104 blocks fill the array, which therefore ends as the flat code of the column; and the flat code of the flattened
  labels, viewed as 4096 × 26 × 1000, is the one-hot code of the label array.
-/
import proofs.«170936_g74560632258595_cont_9to1c4b_788_3_alg».proof.Proof.Gen.KernelIdeal.Frame
import proofs.«170936_g74560632258595_cont_9to1c4b_788_3_alg».proof.Proof.BlockPayload
import proofs.«170936_g74560632258595_cont_9to1c4b_788_3_alg».proof.Proof.OneHotSpec
import Idealize.ShloMosaic.Lib.Pipeline.Value
import Idealize.ShloMosaic.Lib.StableHlo.Run
import Idealize.ShloMosaic.Lib.ValueIdx

set_option maxRecDepth 16384

noncomputable section

namespace Cert.KernelIdeal.Code

open Cert.KernelIdeal Cert.KernelIdeal.Gen Cert.KernelIdeal.Block Cert.OneHot
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Both of a block's offsets are zero. -/
theorem origin : (![0, 0] : Fin 2 → Nat) = fun _ => 0 := funext fun a => by fin_cases a <;> rfl

/-- The column the region reads: the label array viewed as 106496 × 1. -/
theorem column_eq (c : Dev nD) :
    (V m c main_v0 : S106496x1.Idx → BitVec 32)
      = shapeCast S106496x1 (m ((c : Thread nD τ).loc main_arg0)) shapeCasts_S4096x26_S106496x1 := by
  show StableHlo.after hostOps0 (fun b => m (c, b)) (Proc.devRef .tc main_v0) = _
  after_results
  rfl

/-- At every grid point the label window and the code window sit at the same block row, and neither moves along the
    second axis. -/
theorem block_rows : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every one of the 104 block rows is some grid point's. -/
theorem block_row_onto : ∀ k : Fin 104, ∃ t : Fin cfg0.N, win0_1.index t = ![k.val, 0] :=
  (by decide +kernel : ∀ k : Fin 104, ∃ t : Fin grid0.N, win0_1.index t = ![k.val, 0])

/-- What point `t` writes back is its block of the flat code of the column. -/
theorem flushed_eq (c : Dev nD) (t : Fin cfg0.N) :
    (dats m 0 c).flushed 1 t = ((cfg0.win 1).blk t).view.read (Elt Ideal) (oneHotFlat (V m c main_v0)) := by
  show (cfg0.win 1).cut (grid0.coords t) ((dats m 0 c).after 1 t) = _
  rw [after0_1]
  unfold out0_1
  rw [View.canon_unit_zero origin]
  simp only [View.ld_unit_zero (S := S1024x1) origin]
  obtain ⟨e0, e1, e2⟩ := block_rows t
  funext j
  obtain ⟨p, q, rfl⟩ : ∃ (p : Fin 1024) (q : Fin 1000), j = ix2 p q := ⟨j 0, j 1, eq_ix2 j⟩
  refine payload_eq_flat (iblk m c 0 t) (V m c main_v0) p q (((cfg0.win 1).blk t).view.emb (ix2 p q)) ?_ ?_
  · show V m c main_v0 (((cfg0.win 0).blk t).view.emb (ix2 p (0 : Fin 1))) = _
    refine congrArg (V m c main_v0) (funext fun a => Fin.ext ?_)
    match a with
    | ⟨0, _⟩ =>
      show win0_0.index t (0 : Fin 2) * 1024 + 1 * p.val = win0_1.index t (0 : Fin 2) * 1024 + 1 * p.val
      omega
    | ⟨1, _⟩ =>
      show win0_0.index t (1 : Fin 2) * 1 + 1 * 0 = 0
      omega
  · show q.val = win0_1.index t (1 : Fin 2) * 1000 + 1 * q.val
    omega

/-- An entry of the array is in point `t`'s block when each coordinate is in the block's range on its axis. -/
theorem mem_blk (t : Fin cfg0.N) (i : S106496x1000.Idx) :
    i ∈ ((cfg0.win 1).blk t).view.set ↔ ∀ a : Fin 2, win0_1.index t a * S1024x1000.size a ≤ (i a).val
      ∧ (i a).val < win0_1.index t a * S1024x1000.size a + S1024x1000.size a := by
  show i ∈ ((View.whole main_v1).slice (win0_1.rect t)).set ↔ _
  rw [View.set_slice_whole, Rect.mem_set_unit]
  exact Iff.rfl

/-- Row `r` of the array is in the block of the point whose block row is `r / 1024`: the blocks fill the array. -/
theorem blocks_fill (i : S106496x1000.Idx) :
    ∃ t : Fin cfg0.N, (cfg0.win 1).flush t = true ∧ i ∈ ((cfg0.win 1).blk t).view.set := by
  have hi0 : (i 0).val < 106496 := (i 0).isLt
  have hi1 : (i 1).val < 1000 := (i 1).isLt
  obtain ⟨t, ht⟩ := block_row_onto ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1000 ≤ (i 1).val ∧ (i 1).val < win0_1.index t (1 : Fin 2) * 1000 + 1000
    omega

/-- After the region the 106496 × 1000 array is the flat code of the column. -/
theorem array_eq (c : Dev nD) : (dats m 0 c).arrAt 1 cfg0.N = oneHotFlat (V m c main_v0) :=
  (dats m 0 c).arrAt_eq_of_cover 1 (oneHotFlat (V m c main_v0)) (fun t _ => flushed_eq m c t) blocks_fill

/-- After the trailing view the result is the one-hot code of the label array. -/
theorem result_eq (c : Dev nD) :
    Pipeline.afterTail₀ cfgs (dats m) 0 (V0 m) [hostOps1] c main_v2 = oneHot (m ((c : Thread nD τ).loc main_arg0)) := by
  unfold Pipeline.afterTail₀
  show StableHlo.after hostOps1 _ (Proc.devRef .tc main_v2) = _
  after_results
  show shapeCast S4096x26x1000
      (Pipeline.withArrays spec0 c (V0 m c) (fun w => (dats m 0 c).arrAt w cfg0.N) (Proc.devRef .tc (Pipeline.arrRef spec0 1)))
      shapeCasts_S106496x1000_S4096x26x1000 = _
  rw [Pipeline.withArrays_arr spec0 launch0.win.arr_inj c (V0 m c) (fun w => (dats m 0 c).arrAt w cfg0.N) 1,
    array_eq, column_eq]
  exact oneHot_of_flat _ _ _

/-- Every weakly fair execution of the idealized kernel terminates with its result array at the one-hot code of the
    label array, which it leaves as it was. -/
theorem run : θ_run defs (onTc (τ := τ) (main (F := Ideal))) ⟨m, fun _ => 0, ρ⟩ fun r => ∀ c : Dev nD,
      r.2.mem ((c.tc : Thread nD τ).loc main_v2) = oneHot (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.Code

end
-- ==== Proof.lean ====
/-
  One-hot encoding of 4096 × 26 class labels into 1000 classes: a kernel that works on the flattened labels, 1024 at a
  time, against the reference's broadcast-and-compare.

  Both programs compute the same array, `Cert.OneHot.oneHot`: entry `(b, s, c)` is 1 when the word of label `(b, s)`
  is the word of `c` and 0 otherwise. The kernel gets there through the flat view (labels as a column of 106496 words,
  code as 106496 rows of 1000 numbers, 104 blocks of 1024 rows) and converts each comparison bit by widening it to a
  word and reading the word signed; the reference keeps the three axes and reads the bit unsigned. A bit widened with
  zeros is 0 or 1 either way, and row `b · 26 + s` of the flat code is row `(b, s)` of the other. No property of the
  labels is used: a label outside 0 … 999 gives a row of zeros on both sides.

  The three programs run and keep their argument (the kernel's two frames are the generated ones; the reference's is its
  generated run with the result dropped); the idealization rewrote nothing, so it is preserved trivially; and the two
  idealized programs, run from memories that agree on the labels, both end at the one-hot code of the labels.
-/
import proofs.«170936_g74560632258595_cont_9to1c4b_788_3_alg».proof.Defs
import proofs.«170936_g74560632258595_cont_9to1c4b_788_3_alg».proof.Proof.Gen.Kernel
import proofs.«170936_g74560632258595_cont_9to1c4b_788_3_alg».proof.Proof.Gen.Kernel.Skeleton
import proofs.«170936_g74560632258595_cont_9to1c4b_788_3_alg».proof.Proof.Gen.Kernel.Launch
import proofs.«170936_g74560632258595_cont_9to1c4b_788_3_alg».proof.Proof.Gen.Kernel.Points
import proofs.«170936_g74560632258595_cont_9to1c4b_788_3_alg».proof.Proof.Gen.Kernel.Frame
import proofs.«170936_g74560632258595_cont_9to1c4b_788_3_alg».proof.Proof.Gen.KernelIdeal
import proofs.«170936_g74560632258595_cont_9to1c4b_788_3_alg».proof.Proof.Gen.KernelIdeal.Skeleton
import proofs.«170936_g74560632258595_cont_9to1c4b_788_3_alg».proof.Proof.Gen.KernelIdeal.Launch
import proofs.«170936_g74560632258595_cont_9to1c4b_788_3_alg».proof.Proof.Gen.KernelIdeal.Points
import proofs.«170936_g74560632258595_cont_9to1c4b_788_3_alg».proof.Proof.Gen.KernelIdeal.Frame
import proofs.«170936_g74560632258595_cont_9to1c4b_788_3_alg».proof.Proof.Gen.ReferenceIdeal
import proofs.«170936_g74560632258595_cont_9to1c4b_788_3_alg».proof.Proof.Gen.ReferenceIdeal.Run
import proofs.«170936_g74560632258595_cont_9to1c4b_788_3_alg».proof.Proof.Gen.ReferenceIdeal.Read
import proofs.«170936_g74560632258595_cont_9to1c4b_788_3_alg».proof.Proof.Gen.Pre_any_inputs
import proofs.«170936_g74560632258595_cont_9to1c4b_788_3_alg».proof.Proof.OneHotSpec
import proofs.«170936_g74560632258595_cont_9to1c4b_788_3_alg».proof.Proof.ReferenceValue
import proofs.«170936_g74560632258595_cont_9to1c4b_788_3_alg».proof.Proof.KernelValue
import Idealize.ShloMosaic.Adequacy
import Idealize.ShloMosaic.Init

noncomputable section

namespace Cert.Proof

open Idealize.ShloMosaic Idealize.SL.Sem

/-- The kernel as printed runs and keeps the labels. -/
theorem frame_kernel : Cert.frame_Kernel := fun m ρ _ => Cert.Kernel.Gen.frame m ρ

/-- The idealized kernel runs and keeps the labels. -/
theorem frame_kernelIdeal : Cert.frame_KernelIdeal := fun m ρ _ => Cert.KernelIdeal.Gen.frame m ρ

/-- The idealized reference runs and keeps the labels: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the labels, the idealized kernel and the idealized reference both end with the
    one-hot code of the labels as their result. -/
theorem algebraic : Cert.algebraic_KernelIdeal_ReferenceIdeal := by
  intro m ρ m' ρ' _ hagree
  refine ⟨fun c => Cert.OneHot.oneHot
      (m ((c.tc : Thread Cert.KernelIdeal.nD Cert.KernelIdeal.τ).loc Cert.KernelIdeal.main_arg0)),
    Cert.KernelIdeal.Code.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.ReferenceIdeal.RefValue.reference_is_oneHot, hagree c]

theorem claim : Cert.Claim := ⟨Cert.Kernel.Gen.facts, Cert.KernelIdeal.Gen.facts, Cert.ReferenceIdeal.Gen.facts, Cert.Pre_any_inputs.Gen.facts,
  frame_kernel, frame_kernelIdeal, frame_referenceIdeal, trivial, algebraic⟩

end Cert.Proof

end
